-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩
abbrev S1x1600000 : Shape := ⟨2, ![1, 1600000]⟩
abbrev S1600000 : Shape := ⟨1, ![1600000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg1 : IVec S2x1600000 32) (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : IVec S1x1600000 32 := (extractStridedSlice S1x1600000 ![0, 0] · slices_S2x1600000_S1x1600000_0_0) main_arg1
  let main_v25 : IVec S1600000 32 := shapeCast S1600000 main_v24 shapeCasts_S1x1600000_S1600000
  let main_c_8 : IVec S_ 32 := constantI S_ 32 4294867296#32
  let main_v26 : IVec S1600000 32 := broadcastInDim S1600000 ![] bcast_S_S1600000 main_c_8
  let main_v27 : IVec S1600000 1 := cmpi .sge main_v25 main_v26
  let main_v28 : IVec S1x1600000 32 := (extractStridedSlice S1x1600000 ![0, 0] · slices_S2x1600000_S1x1600000_0_0) main_arg1
  let main_v29 : IVec S1600000 32 := shapeCast S1600000 main_v28 shapeCasts_S1x1600000_S1600000
  let main_c_9 : IVec S_ 32 := constantI S_ 32 100000#32
  let main_v30 : IVec S1600000 32 := broadcastInDim S1600000 ![] bcast_S_S1600000 main_c_9
  let main_v31 : IVec S1600000 1 := cmpi .slt main_v29 main_v30
  let main_v32 : IVec S1600000 1 := andi main_v27 main_v31
  let main_c_10 : IVec S_ 1 := constantI S_ 1 1#1
  let main_v33 : IVec S_ 1 := (fun x v => Host.reduce IntOp.andi x v reducesTo_S1600000_S_d0 h_S_) main_v32 main_c_10
  let main_v34 : IVec S_ 1 := andi main_v23 main_v33
  main_v34

def fn {F : FTy → Type} [FloatOps F] (main_arg0 : FVec F S100000x64 .f32) (main_arg1 : IVec S2x1600000 32) (main_arg2 : FVec F S64x128 .f32) (main_arg3 : FVec F S128 .f32) (main_arg4 : FVec F S128x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg5 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S5000x64 : Shape := ⟨2, ![5000, 64]⟩
abbrev S5000x128 : Shape := ⟨2, ![5000, 128]⟩
abbrev S1x128 : Shape := ⟨2, ![1, 128]⟩
abbrev S1x64 : Shape := ⟨2, ![1, 64]⟩

abbrev nBuf : Space → Nat
  | .hbm => 38
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1, .i32⟩
  | .hbm, ⟨19, _⟩ => ⟨S_, .i32⟩
  | .hbm, ⟨20, _⟩ => ⟨S1600000x1, .i32⟩
  | .hbm, ⟨21, _⟩ => ⟨S1600000x1, .i1⟩
  | .hbm, ⟨22, _⟩ => ⟨S1x1, .i32⟩
  | .hbm, ⟨23, _⟩ => ⟨S1600000x1, .i32⟩
  | .hbm, ⟨24, _⟩ => ⟨S1600000x1, .i1⟩
  | .hbm, ⟨25, _⟩ => ⟨S1600000x1, .i1⟩
  | .hbm, ⟨26, _⟩ => ⟨S_, .i1⟩
  | .hbm, ⟨27, _⟩ => ⟨S1600000, .i1⟩
  | .hbm, ⟨28, _⟩ => ⟨S1600000x64, .f32⟩
  | .hbm, ⟨29, _⟩ => ⟨S1600000x64, .i1⟩
  | .hbm, ⟨30, _⟩ => ⟨S_, .f32⟩
  | .hbm, ⟨31, _⟩ => ⟨S1600000x64, .f32⟩
  | .hbm, ⟨32, _⟩ => ⟨S1600000x64, .f32⟩
  | .hbm, ⟨33, _⟩ => ⟨S_, .f32⟩
  | .hbm, ⟨34, _⟩ => ⟨S100000x64, .f32⟩
  | .hbm, ⟨35, _⟩ => ⟨S1600000x1, .i32⟩
  | .hbm, ⟨36, _⟩ => ⟨S100000x64, .f32⟩
  | .hbm, ⟨37, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S128, .f32⟩
  | .local _ .vmem, ⟨6, _⟩ => ⟨S128x64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v4 : Ref sig .tc := ⟨.hbm, 32, rfl⟩
abbrev main_cst : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v7) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x128 : Shape := ⟨2, ![100000, 128]⟩
abbrev S1x128 : Shape := ⟨2, ![1, 128]⟩
abbrev S1x64 : Shape := ⟨2, ![1, 64]⟩

abbrev nBuf : Space → Nat
  | .hbm => 38
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S_, .f32⟩
  | .hbm, ⟨24, _⟩ => ⟨S100000x64, .f32⟩
  | .hbm, ⟨25, _⟩ => ⟨S100000x64, .f32⟩
  | .hbm, ⟨26, _⟩ => ⟨S100000x64, .f32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S_, .f32⟩
  | .hbm, ⟨32, _⟩ => ⟨S100000x128, .f32⟩
  | .hbm, ⟨33, _⟩ => ⟨S100000x128, .f32⟩
  | .hbm, ⟨34, _⟩ => ⟨S100000x64, .f32⟩
  | .hbm, ⟨35, _⟩ => ⟨S1x64, .f32⟩
  | .hbm, ⟨36, _⟩ => ⟨S100000x64, .f32⟩
  | .hbm, ⟨37, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.NodeOutput.lean ====
/-
  One graph node's output under the isomorphism-network layer, as a function of that node's two rows.

  For a node with aggregated neighbour features `a` (64 channels) and own features `x` (64 channels) the
  layer computes the residual `a + 1·x`, a hidden layer of 128 rectified units
  `h k = max (Σ_l (a l + 1·x l) · W1 l k + b1 k) 0`, and the output channel
  `q ↦ Σ_k h k · W2 k q + b2 q`. The output row of a node depends on no other node's rows: this is what
  lets a computation over blocks of nodes and a computation over all nodes at once be compared node by node.
  The unit factor of the residual and the rectifier's threshold are kept as the 32-bit float patterns
  `0x3F800000` and `0x00000000` read as extended reals; nothing here needs their values.
-/
import Idealize.ShloMosaic.PureOps.Ideal
import Idealize.ShloMosaic.Lib.ValueIdx

noncomputable section

namespace Cert.GinLayer

open Idealize.ShloMosaic Idealize.ShloMosaic.ValueIdx

/-- Hidden unit `k` of a node: the rectified affine form of the residual row. -/
def hiddenUnit (a x : Fin 64 → EReal) (W1 : (⟨2, ![64, 128]⟩ : Shape).Idx → EReal)
    (b1 : (⟨1, ![128]⟩ : Shape).Idx → EReal) (k : Fin 128) : EReal :=
  max ((∑ l : Fin 64, (a l + Ideal.ofBits .f32 0x3F800000#32 * x l) * W1 (ix2 l k)) + b1 (ix1 k))
    (Ideal.ofBits .f32 0x00000000#32)

/-- Output channel `q` of a node: the affine form of its 128 hidden units. -/
def nodeOut (a x : Fin 64 → EReal) (W1 : (⟨2, ![64, 128]⟩ : Shape).Idx → EReal)
    (b1 : (⟨1, ![128]⟩ : Shape).Idx → EReal) (W2 : (⟨2, ![128, 64]⟩ : Shape).Idx → EReal)
    (b2 : (⟨1, ![64]⟩ : Shape).Idx → EReal) (q : Fin 64) : EReal :=
  (∑ k : Fin 128, hiddenUnit a x W1 b1 k * W2 (ix2 k q)) + b2 (ix1 q)

/-- The layer over `n` nodes at once: row `r` of the result is `nodeOut` of rows `r` of the two node arrays. -/
def layer100000 (A X : (⟨2, ![100000, 64]⟩ : Shape).Idx → EReal) (W1 : (⟨2, ![64, 128]⟩ : Shape).Idx → EReal)
    (b1 : (⟨1, ![128]⟩ : Shape).Idx → EReal) (W2 : (⟨2, ![128, 64]⟩ : Shape).Idx → EReal)
    (b2 : (⟨1, ![64]⟩ : Shape).Idx → EReal) : (⟨2, ![100000, 64]⟩ : Shape).Idx → EReal :=
  fun i => nodeOut (fun l => A (ix2 (i 0) l)) (fun l => X (ix2 (i 0) l)) W1 b1 W2 b2 (i 1)

/-- Entry `(r, q)` of the layer over all nodes is the node output of rows `r`. -/
theorem layer100000_apply (A X : (⟨2, ![100000, 64]⟩ : Shape).Idx → EReal) (W1 : (⟨2, ![64, 128]⟩ : Shape).Idx → EReal)
    (b1 : (⟨1, ![128]⟩ : Shape).Idx → EReal) (W2 : (⟨2, ![128, 64]⟩ : Shape).Idx → EReal)
    (b2 : (⟨1, ![64]⟩ : Shape).Idx → EReal) (r : Fin 100000) (q : Fin 64) :
    layer100000 A X W1 b1 W2 b2 (ix2 r q) = nodeOut (fun l => A (ix2 r l)) (fun l => X (ix2 r l)) W1 b1 W2 b2 q := rfl

end Cert.GinLayer

end
-- ==== Proof.KernelPayload.lean ====
/-
  What one grid point's body stores, entry by entry.

  The body loads a block of 5000 aggregated rows and the matching block of 5000 feature rows (64 channels
  each) and the four parameter arrays whole, and stores one block of 5000 output rows. Read on the extended
  reals the two narrowings to the 16-bit format are the identity and each matrix product into a zero
  accumulator is the plain sum over its contracted axis (64 terms, then 128 terms). So entry `(p, q)` of the
  stored block is the output channel `q` of the node whose aggregated row and feature row are rows `p` of
  the two loaded blocks: no other row of either block enters it.
-/
import proofs.«421940_j66340064854628_3_alg».proof.Proof.Gen.KernelIdeal.Skeleton
import proofs.«421940_j66340064854628_3_alg».proof.Proof.NodeOutput
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.GinLayer

/-! ## The two products' operand indices: output row and contracted position on the left, contracted position and output column on the right -/

theorem lhs_first_0 (i : S5000x128.Idx) (c : dot_S5000x64_S64x128_S5000x128_1_0_0_1_n_n.contr.Idx) :
    (dot_S5000x64_S64x128_S5000x128_1_0_0_1_n_n.lhsIdx i c 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
theorem lhs_first_1 (i : S5000x128.Idx) (c : dot_S5000x64_S64x128_S5000x128_1_0_0_1_n_n.contr.Idx) :
    (dot_S5000x64_S64x128_S5000x128_1_0_0_1_n_n.lhsIdx i c 1).val = (c ⟨0, by decide⟩).val :=
  dot_S5000x64_S64x128_S5000x128_1_0_0_1_n_n.lhsIdx_val_of_single rfl i c
theorem rhs_first_0 (i : S5000x128.Idx) (c : dot_S5000x64_S64x128_S5000x128_1_0_0_1_n_n.contr.Idx) :
    (dot_S5000x64_S64x128_S5000x128_1_0_0_1_n_n.rhsIdx i c 0).val = (c ⟨0, by decide⟩).val :=
  dot_S5000x64_S64x128_S5000x128_1_0_0_1_n_n.rhsIdx_val_of_single rfl i c
theorem rhs_first_1 (i : S5000x128.Idx) (c : dot_S5000x64_S64x128_S5000x128_1_0_0_1_n_n.contr.Idx) :
    (dot_S5000x64_S64x128_S5000x128_1_0_0_1_n_n.rhsIdx i c 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

theorem lhs_second_0 (i : S5000x64.Idx) (c : dot_S5000x128_S128x64_S5000x64_1_0_0_1_n_n.contr.Idx) :
    (dot_S5000x128_S128x64_S5000x64_1_0_0_1_n_n.lhsIdx i c 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_second_1 (i : S5000x64.Idx) (c : dot_S5000x128_S128x64_S5000x64_1_0_0_1_n_n.contr.Idx) :
    (dot_S5000x128_S128x64_S5000x64_1_0_0_1_n_n.lhsIdx i c 1).val = (c ⟨0, by decide⟩).val :=
  dot_S5000x128_S128x64_S5000x64_1_0_0_1_n_n.lhsIdx_val_of_single rfl i c
theorem rhs_second_0 (i : S5000x64.Idx) (c : dot_S5000x128_S128x64_S5000x64_1_0_0_1_n_n.contr.Idx) :
    (dot_S5000x128_S128x64_S5000x64_1_0_0_1_n_n.rhsIdx i c 0).val = (c ⟨0, by decide⟩).val :=
  dot_S5000x128_S128x64_S5000x64_1_0_0_1_n_n.rhsIdx_val_of_single rfl i c
theorem rhs_second_1 (i : S5000x64.Idx) (c : dot_S5000x128_S128x64_S5000x64_1_0_0_1_n_n.contr.Idx) :
    (dot_S5000x128_S128x64_S5000x64_1_0_0_1_n_n.rhsIdx i c 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-! ## Each product at an entry is the sum over its contracted axis -/

/-- The residual block times the first weight matrix: entry `(p, j)` sums the 64 products along row `p` and column `j`. -/
theorem first_apply (A : FVec Ideal S5000x64 .bf16) (B : FVec Ideal S64x128 .bf16) (p : Fin 5000) (j : Fin 128) :
    matmul dot_S5000x64_S64x128_S5000x128_1_0_0_1_n_n none A B (constant S5000x128 .f32 0x00000000#32) (ix2 p j)
      = ∑ l : Fin 64, A (ix2 p l) * B (ix2 l j) := by
  simp only [matmul]
  rw [Ideal.matmul_constant_zero_apply, ← Equiv.sum_comp (contrEquiv1 dot_S5000x64_S64x128_S5000x128_1_0_0_1_n_n 64 rfl rfl).symm]
  refine Finset.sum_congr rfl fun l _ => ?_
  have hl := contrEquiv1_symm_val dot_S5000x64_S64x128_S5000x128_1_0_0_1_n_n 64 rfl rfl l
  have el : dot_S5000x64_S64x128_S5000x128_1_0_0_1_n_n.lhsIdx (ix2 p j) ((contrEquiv1 dot_S5000x64_S64x128_S5000x128_1_0_0_1_n_n 64 rfl rfl).symm l) = ix2 p l := funext fun a => Fin.ext (by
    match a with
    | ⟨0, _⟩ => exact lhs_first_0 _ _
    | ⟨1, _⟩ => exact (lhs_first_1 _ _).trans hl)
  have er : dot_S5000x64_S64x128_S5000x128_1_0_0_1_n_n.rhsIdx (ix2 p j) ((contrEquiv1 dot_S5000x64_S64x128_S5000x128_1_0_0_1_n_n 64 rfl rfl).symm l) = ix2 l j := funext fun a => Fin.ext (by
    match a with
    | ⟨0, _⟩ => exact (rhs_first_0 _ _).trans hl
    | ⟨1, _⟩ => exact rhs_first_1 _ _)
  rw [el, er]

/-- The hidden block times the second weight matrix: entry `(p, j)` sums the 128 products along row `p` and column `j`. -/
theorem second_apply (A : FVec Ideal S5000x128 .bf16) (B : FVec Ideal S128x64 .bf16) (p : Fin 5000) (j : Fin 64) :
    matmul dot_S5000x128_S128x64_S5000x64_1_0_0_1_n_n none A B (constant S5000x64 .f32 0x00000000#32) (ix2 p j)
      = ∑ l : Fin 128, A (ix2 p l) * B (ix2 l j) := by
  simp only [matmul]
  rw [Ideal.matmul_constant_zero_apply, ← Equiv.sum_comp (contrEquiv1 dot_S5000x128_S128x64_S5000x64_1_0_0_1_n_n 128 rfl rfl).symm]
  refine Finset.sum_congr rfl fun l _ => ?_
  have hl := contrEquiv1_symm_val dot_S5000x128_S128x64_S5000x64_1_0_0_1_n_n 128 rfl rfl l
  have el : dot_S5000x128_S128x64_S5000x64_1_0_0_1_n_n.lhsIdx (ix2 p j) ((contrEquiv1 dot_S5000x128_S128x64_S5000x64_1_0_0_1_n_n 128 rfl rfl).symm l) = ix2 p l := funext fun a => Fin.ext (by
    match a with
    | ⟨0, _⟩ => exact lhs_second_0 _ _
    | ⟨1, _⟩ => exact (lhs_second_1 _ _).trans hl)
  have er : dot_S5000x128_S128x64_S5000x64_1_0_0_1_n_n.rhsIdx (ix2 p j) ((contrEquiv1 dot_S5000x128_S128x64_S5000x64_1_0_0_1_n_n 128 rfl rfl).symm l) = ix2 l j := funext fun a => Fin.ext (by
    match a with
    | ⟨0, _⟩ => exact (rhs_second_0 _ _).trans hl
    | ⟨1, _⟩ => exact rhs_second_1 _ _)
  rw [el, er]

/-! ## The residual, the hidden units and the stored entry -/

/-- The residual block as the body forms it: aggregated rows plus the unit multiple of the feature rows. -/
abbrev residualBlock (v0 v2 : Vec Ideal S5000x64 .f32) : FVec Ideal S5000x64 .f32 :=
  addf (shapeCast S5000x64 v0 shapeCasts_S5000x64_S5000x64) (mulf (broadcast S5000x64 (FloatOps.ofBits .f32 0x3F800000#32)) v2)

/-- Entry `(p, l)` of the residual block, narrowed or not, is `a + 1·x` at that entry. -/
theorem residual_apply (v0 v2 : Vec Ideal S5000x64 .f32) (p : Fin 5000) (l : Fin 64) :
    truncf .bf16 (residualBlock v0 v2) bitsLt_bf16_f32 (ix2 p l)
      = v0 (ix2 p l) + Ideal.ofBits .f32 0x3F800000#32 * v2 (ix2 p l) := by
  unfold residualBlock
  rw [shapeCast_self]
  rfl

/-- The hidden block as the body forms it from a residual block `R`. -/
abbrev hiddenBlock (R : FVec Ideal S5000x64 .f32) (v7 : Vec Ideal S64x128 .f32) (v10 : Vec Ideal S128 .f32) : FVec Ideal S5000x128 .f32 :=
  maximumf (addf (matmul dot_S5000x64_S64x128_S5000x128_1_0_0_1_n_n none (truncf .bf16 R bitsLt_bf16_f32) (truncf .bf16 v7 bitsLt_bf16_f32) (constant S5000x128 .f32 0x00000000#32))
      (broadcastTo S5000x128 (shapeCast S1x128 v10 shapeCasts_S128_S1x128) broadcasts_S1x128_S5000x128))
    (broadcast S5000x128 (FloatOps.ofBits .f32 0x00000000#32))

/-- Entry `(p, k)` of the hidden block: the rectified sum along row `p` of `R` and column `k` of the first weights, plus bias `k`. -/
theorem hidden_apply (R : FVec Ideal S5000x64 .f32) (v7 : Vec Ideal S64x128 .f32) (v10 : Vec Ideal S128 .f32) (p : Fin 5000) (k : Fin 128) :
    hiddenBlock R v7 v10 (ix2 p k)
      = max ((∑ l : Fin 64, truncf .bf16 R bitsLt_bf16_f32 (ix2 p l) * v7 (ix2 l k)) + v10 (ix1 k)) (Ideal.ofBits .f32 0x00000000#32) := by
  unfold hiddenBlock
  refine congrArg₂ max (congrArg₂ (· + ·) ((first_apply _ _ p k).trans ?_) ?_) rfl
  · rfl
  · exact (broadcastTo_1b_ab_apply _ _ p k).trans (shapeCast_a_1a_apply _ _ 0 k)

/-- THE STORED ENTRY: entry `(p, q)` of the block the body stores is the output channel `q` of the node whose two rows
    are rows `p` of the loaded aggregated block `v0` and feature block `v2`. -/
theorem pay_apply (v0 v2 : Vec Ideal S5000x64 .f32) (v7 : Vec Ideal S64x128 .f32) (v10 : Vec Ideal S128 .f32)
    (v17 : Vec Ideal S128x64 .f32) (v20 : Vec Ideal S64 .f32) (p : Fin 5000) (q : Fin 64) :
    k0_pay1 (F := Ideal) v0 v2 v7 v10 v17 v20 (ix2 p q)
      = nodeOut (fun l => v0 (ix2 p l)) (fun l => v2 (ix2 p l)) v7 v10 v17 v20 q := by
  unfold k0_pay1
  show matmul dot_S5000x128_S128x64_S5000x64_1_0_0_1_n_n none (truncf .bf16 (hiddenBlock (residualBlock v0 v2) v7 v10) bitsLt_bf16_f32) (truncf .bf16 v17 bitsLt_bf16_f32) (constant S5000x64 .f32 0x00000000#32) (ix2 p q)
      + broadcastTo S5000x64 (shapeCast S1x64 v20 shapeCasts_S64_S1x64) broadcasts_S1x64_S5000x64 (ix2 p q) = _
  rw [second_apply, broadcastTo_1b_ab_apply, shapeCast_a_1a_apply]
  unfold nodeOut
  refine congrArg₂ (· + ·) (Finset.sum_congr rfl fun k _ => ?_) rfl
  refine congrArg₂ (· * ·) ?_ rfl
  show hiddenBlock (residualBlock v0 v2) v7 v10 (ix2 p k) = _
  rw [hidden_apply]
  unfold hiddenUnit
  refine congrArg₂ max (congrArg₂ (· + ·) (Finset.sum_congr rfl fun l _ => ?_) rfl) rfl
  rw [residual_apply]

end Cert.KernelIdeal.Body

end
-- ==== Proof.KernelArray.lean ====
/-
  From the twenty blocks to the whole result array.

  The grid has 20 points. At point `t` the two node windows (aggregated rows, feature rows) hold rows
  `5000·t … 5000·t + 4999` of their arrays, the four parameter windows hold their arrays whole, and the output
  window's block is rows `5000·t … 5000·t + 4999` of the result array. Since the stored entry `(p, q)` is the
  output channel `q` of the node with rows `p` of the two node blocks, the block point `t` writes back is block
  `t` of ONE whole-array function: row `r` of the result is the node output of rows `r` of the aggregate array
  and the feature array. Row `r` lies in the block of point `r / 5000`, so the 20 blocks cover the array and the
  array ends holding that function. The six input arrays are kept as names throughout: only where an index
  lands in them matters here, never what they hold.
-/
import proofs.«421940_j66340064854628_3_alg».proof.Proof.Gen.KernelIdeal.Value
import proofs.«421940_j66340064854628_3_alg».proof.Proof.KernelPayload

noncomputable section

namespace Cert.KernelIdeal.Whole

open Cert.KernelIdeal Cert.KernelIdeal.Gen Idealize.ShloMosaic Idealize.ShloMosaic.TcCoe Idealize.SL.Sem
open Idealize.ShloMosaic.ValueIdx Cert.GinLayer
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros1 : (![0] : Fin 1 → Nat) = fun _ => 0 := funext fun a => by fin_cases a <;> rfl

/-- The block index of every window at every one of the 20 points: the three node windows are at block row `t`,
    column block 0; the four parameter windows stay at block 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-! ## Where a block's index lands in its array -/

theorem agg_emb (t : Fin cfg0.N) (p : Fin 5000) (l : Fin 64) (r : Fin 100000) (hr : r.val = t.val * 5000 + p.val) :
    ((cfg0.win 0).blk t).view.emb (ix2 p l) = ix2 r l := by
  obtain ⟨e00, e01, e10, e11, -, -, -, -, -, -, e60, e61⟩ := index_facts t
  funext a; apply Fin.ext
  match a with
  | ⟨0, _⟩ => show win0_0.index t (0 : Fin 2) * 5000 + 1 * p.val = r.val; omega
  | ⟨1, _⟩ => show win0_0.index t (1 : Fin 2) * 64 + 1 * l.val = l.val; omega

theorem feat_emb (t : Fin cfg0.N) (p : Fin 5000) (l : Fin 64) (r : Fin 100000) (hr : r.val = t.val * 5000 + p.val) :
    ((cfg0.win 1).blk t).view.emb (ix2 p l) = ix2 r l := by
  obtain ⟨e00, e01, e10, e11, -, -, -, -, -, -, e60, e61⟩ := index_facts t
  funext a; apply Fin.ext
  match a with
  | ⟨0, _⟩ => show win0_1.index t (0 : Fin 2) * 5000 + 1 * p.val = r.val; omega
  | ⟨1, _⟩ => show win0_1.index t (1 : Fin 2) * 64 + 1 * l.val = l.val; omega

theorem out_emb (t : Fin cfg0.N) (p : Fin 5000) (l : Fin 64) (r : Fin 100000) (hr : r.val = t.val * 5000 + p.val) :
    ((cfg0.win 6).blk t).view.emb (ix2 p l) = ix2 r l := by
  obtain ⟨e00, e01, e10, e11, -, -, -, -, -, -, e60, e61⟩ := index_facts t
  funext a; apply Fin.ext
  match a with
  | ⟨0, _⟩ => show win0_6.index t (0 : Fin 2) * 5000 + 1 * p.val = r.val; omega
  | ⟨1, _⟩ => show win0_6.index t (1 : Fin 2) * 64 + 1 * l.val = l.val; omega

theorem w1_emb (t : Fin cfg0.N) (y : S64x128.Idx) : ((cfg0.win 2).blk t).view.emb y = y := by
  obtain ⟨-, -, -, -, e20, e21, e30, e40, e41, e50, -, -⟩ := index_facts t
  funext a; apply Fin.ext
  match a with
  | ⟨0, _⟩ => show win0_2.index t (0 : Fin 2) * 64 + 1 * (y 0).val = (y 0).val; omega
  | ⟨1, _⟩ => show win0_2.index t (1 : Fin 2) * 128 + 1 * (y 1).val = (y 1).val; omega

theorem b1_emb (t : Fin cfg0.N) (y : S128.Idx) : ((cfg0.win 3).blk t).view.emb y = y := by
  obtain ⟨-, -, -, -, e20, e21, e30, e40, e41, e50, -, -⟩ := index_facts t
  funext a; apply Fin.ext
  match a with
  | ⟨0, _⟩ => show win0_3.index t (0 : Fin 1) * 128 + 1 * (y 0).val = (y 0).val; omega

theorem w2_emb (t : Fin cfg0.N) (y : S128x64.Idx) : ((cfg0.win 4).blk t).view.emb y = y := by
  obtain ⟨-, -, -, -, e20, e21, e30, e40, e41, e50, -, -⟩ := index_facts t
  funext a; apply Fin.ext
  match a with
  | ⟨0, _⟩ => show win0_4.index t (0 : Fin 2) * 128 + 1 * (y 0).val = (y 0).val; omega
  | ⟨1, _⟩ => show win0_4.index t (1 : Fin 2) * 64 + 1 * (y 1).val = (y 1).val; omega

theorem b2_emb (t : Fin cfg0.N) (y : S64.Idx) : ((cfg0.win 5).blk t).view.emb y = y := by
  obtain ⟨-, -, -, -, e20, e21, e30, e40, e41, e50, -, -⟩ := index_facts t
  funext a; apply Fin.ext
  match a with
  | ⟨0, _⟩ => show win0_5.index t (0 : Fin 1) * 64 + 1 * (y 0).val = (y 0).val; omega

/-! ## Reading a window's block out of ANY array of the window's shape -/

/-- Row `p` of the first node window's block at point `t` is row `5000·t + p` of the array it reads. -/
theorem read_agg_row (c : Dev nD) (A : Buf (Elt Ideal) ((c : Thread nD τ).loc (Pipeline.arrRef spec0 0))) (t : Fin cfg0.N)
    (p : Fin 5000) (l : Fin 64) (r : Fin 100000) (hr : r.val = t.val * 5000 + p.val) :
    ((cfg0.win 0).blk t).view.read (Elt Ideal) A (ix2 p l) = A (ix2 r l) := by
  show A (((cfg0.win 0).blk t).view.emb (ix2 p l)) = A (ix2 r l)
  rw [agg_emb t p l r hr]

/-- Row `p` of the second node window's block at point `t` is row `5000·t + p` of the array it reads. -/
theorem read_feat_row (c : Dev nD) (A : Buf (Elt Ideal) ((c : Thread nD τ).loc (Pipeline.arrRef spec0 1))) (t : Fin cfg0.N)
    (p : Fin 5000) (l : Fin 64) (r : Fin 100000) (hr : r.val = t.val * 5000 + p.val) :
    ((cfg0.win 1).blk t).view.read (Elt Ideal) A (ix2 p l) = A (ix2 r l) := by
  show A (((cfg0.win 1).blk t).view.emb (ix2 p l)) = A (ix2 r l)
  rw [feat_emb t p l r hr]

/-- The first weight window's block is the array it reads, whole. -/
theorem read_w1 (c : Dev nD) (A : Buf (Elt Ideal) ((c : Thread nD τ).loc (Pipeline.arrRef spec0 2))) (t : Fin cfg0.N) :
    ((cfg0.win 2).blk t).view.read (Elt Ideal) A = A := by
  funext y
  show A (((cfg0.win 2).blk t).view.emb y) = A y
  rw [w1_emb t y]

/-- The first bias window's block is the array it reads, whole. -/
theorem read_b1 (c : Dev nD) (A : Buf (Elt Ideal) ((c : Thread nD τ).loc (Pipeline.arrRef spec0 3))) (t : Fin cfg0.N) :
    ((cfg0.win 3).blk t).view.read (Elt Ideal) A = A := by
  funext y
  show A (((cfg0.win 3).blk t).view.emb y) = A y
  rw [b1_emb t y]

/-- The second weight window's block is the array it reads, whole. -/
theorem read_w2 (c : Dev nD) (A : Buf (Elt Ideal) ((c : Thread nD τ).loc (Pipeline.arrRef spec0 4))) (t : Fin cfg0.N) :
    ((cfg0.win 4).blk t).view.read (Elt Ideal) A = A := by
  funext y
  show A (((cfg0.win 4).blk t).view.emb y) = A y
  rw [w2_emb t y]

/-- The second bias window's block is the array it reads, whole. -/
theorem read_b2 (c : Dev nD) (A : Buf (Elt Ideal) ((c : Thread nD τ).loc (Pipeline.arrRef spec0 5))) (t : Fin cfg0.N) :
    ((cfg0.win 5).blk t).view.read (Elt Ideal) A = A := by
  funext y
  show A (((cfg0.win 5).blk t).view.emb y) = A y
  rw [b2_emb t y]

/-- Entry `(p, q)` of the output window's block at point `t`, read out of any array `G` of the result's shape, is entry
    `(5000·t + p, q)` of `G`. -/
theorem read_out (G : S100000x64.Idx → EReal) (t : Fin cfg0.N) (p : Fin 5000) (q : Fin 64) (r : Fin 100000)
    (hr : r.val = t.val * 5000 + p.val) :
    ((cfg0.win 6).blk t).view.read (Elt Ideal) G (ix2 p q) = G (ix2 r q) := by
  show G (((cfg0.win 6).blk t).view.emb (ix2 p q)) = G (ix2 r q)
  rw [out_emb t p q r hr]

/-- The output window's blocks are never clipped: what a point writes back is the whole staged block. -/
theorem cut_apply (X : Vec Ideal S5000x64 .f32) (t : Fin cfg0.N) (y : S5000x64.Idx) :
    (cfg0.win 6).cut (grid0.coords t) X y = X y := rfl

/-! ## The arrays the grid finds, by window, and what each window's block holds at point `t` -/

/-- Window `w`'s array as the grid finds it. -/
def arr (c : Dev nD) (w : Fin cfg0.W) : Buf (Elt Ideal) ((c : Thread nD τ).loc (Pipeline.arrRef spec0 w)) :=
  V m c (Pipeline.arrRef spec0 w)

/-- A window's block at a point is that block read out of the window's array. -/
theorem iblk_eq_read (c : Dev nD) (w : Fin cfg0.W) (t : Fin cfg0.N) :
    iblk m c w t = ((cfg0.win w).blk t).view.read (Elt Ideal) (arr m c w) := rfl

/-- The result array as one function of the arrays the grid finds: the layer over all 100000 nodes. -/
def resultOf (c : Dev nD) : S100000x64.Idx → EReal :=
  layer100000 (arr m c 0) (arr m c 1) (arr m c 2) (arr m c 3) (arr m c 4) (arr m c 5)

theorem agg_block_row (c : Dev nD) (t : Fin cfg0.N) (p : Fin 5000) (l : Fin 64) (r : Fin 100000) (hr : r.val = t.val * 5000 + p.val) :
    iblk m c 0 t (ix2 p l) = arr m c 0 (ix2 r l) :=
  (congrFun (iblk_eq_read m c 0 t) (ix2 p l)).trans (read_agg_row c (arr m c 0) t p l r hr)

theorem feat_block_row (c : Dev nD) (t : Fin cfg0.N) (p : Fin 5000) (l : Fin 64) (r : Fin 100000) (hr : r.val = t.val * 5000 + p.val) :
    iblk m c 1 t (ix2 p l) = arr m c 1 (ix2 r l) :=
  (congrFun (iblk_eq_read m c 1 t) (ix2 p l)).trans (read_feat_row c (arr m c 1) t p l r hr)

theorem w1_block (c : Dev nD) (t : Fin cfg0.N) : iblk m c 2 t = arr m c 2 := (iblk_eq_read m c 2 t).trans (read_w1 c (arr m c 2) t)
theorem b1_block (c : Dev nD) (t : Fin cfg0.N) : iblk m c 3 t = arr m c 3 := (iblk_eq_read m c 3 t).trans (read_b1 c (arr m c 3) t)
theorem w2_block (c : Dev nD) (t : Fin cfg0.N) : iblk m c 4 t = arr m c 4 := (iblk_eq_read m c 4 t).trans (read_w2 c (arr m c 4) t)
theorem b2_block (c : Dev nD) (t : Fin cfg0.N) : iblk m c 5 t = arr m c 5 := (iblk_eq_read m c 5 t).trans (read_b2 c (arr m c 5) t)

/-! ## What point `t` writes back, the cover, and the array -/

/-- WHAT POINT `t` WRITES BACK is block `t` of the layer over all nodes. -/
theorem flushed_eq (c : Dev nD) (t : Fin cfg0.N) :
    (dats m 0 c).flushed 6 t = ((cfg0.win 6).blk t).view.read (Elt Ideal) (resultOf m c) := by
  rw [Value.flushed6]
  unfold out0_6
  rw [View.canon_unit_zero zeros2]
  simp only [View.ld_unit_zero (S := S5000x64) zeros2, View.ld_unit_zero (S := S64x128) zeros2, View.ld_unit_zero (S := S128) zeros1,
    View.ld_unit_zero (S := S128x64) zeros2, View.ld_unit_zero (S := S64) zeros1]
  have ht : t.val < 20 := by have := t.isLt; have hN : cfg0.N = 20 := N_0; omega
  funext y
  obtain ⟨p, q, rfl⟩ : ∃ (p : Fin 5000) (q : Fin 64), y = ix2 p q := ⟨y 0, y 1, eq_ix2 y⟩
  have hp : p.val < 5000 := p.isLt
  rw [cut_apply, read_out (resultOf m c) t p q (⟨t.val * 5000 + p.val, by omega⟩ : Fin 100000) rfl,
    Body.pay_apply (iblk m c 0 t) (iblk m c 1 t) (iblk m c 2 t) (iblk m c 3 t) (iblk m c 4 t) (iblk m c 5 t) p q,
    w1_block m c t, b1_block m c t, w2_block m c t, b2_block m c t]
  have ha : (fun l : Fin 64 => iblk m c 0 t (ix2 p l)) = fun l => arr m c 0 (ix2 (⟨t.val * 5000 + p.val, by omega⟩ : Fin 100000) l) :=
    funext fun l => agg_block_row m c t p l _ rfl
  have hx : (fun l : Fin 64 => iblk m c 1 t (ix2 p l)) = fun l => arr m c 1 (ix2 (⟨t.val * 5000 + p.val, by omega⟩ : Fin 100000) l) :=
    funext fun l => feat_block_row m c t p l _ rfl
  rw [ha, hx]
  unfold resultOf
  rw [layer100000_apply]

/-- An index of the result array is in point `t`'s block iff each coordinate is in the block's range on its axis. -/
theorem mem_blk (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v8).slice (win0_6.rect t)).set ↔ _
  rw [View.set_slice_whole, Rect.mem_set_unit]
  exact Iff.rfl

/-- Every row lies in the block of the point numbered by its quotient by 5000. -/
theorem cover (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 20 := N_0
  refine ⟨⟨(i 0).val / 5000, by omega⟩, flush0_6 _, ?_⟩
  rw [mem_blk]
  obtain ⟨-, -, -, -, -, -, -, -, -, -, e60, e61⟩ := index_facts ⟨(i 0).val / 5000, by omega⟩
  intro a
  match a with
  | ⟨0, _⟩ =>
    show win0_6.index ⟨(i 0).val / 5000, _⟩ (0 : Fin 2) * 5000 ≤ (i 0).val ∧ (i 0).val < win0_6.index ⟨(i 0).val / 5000, _⟩ (0 : Fin 2) * 5000 + 5000
    rw [e60]; show (i 0).val / 5000 * 5000 ≤ (i 0).val ∧ (i 0).val < (i 0).val / 5000 * 5000 + 5000; omega
  | ⟨1, _⟩ =>
    show win0_6.index ⟨(i 0).val / 5000, _⟩ (1 : Fin 2) * 64 ≤ (i 1).val ∧ (i 1).val < win0_6.index ⟨(i 0).val / 5000, _⟩ (1 : Fin 2) * 64 + 64
    rw [e61]; omega

/-- Once the six arrays the grid finds are known, the result function is the layer over them. -/
theorem resultOf_eq (c : Dev nD) {A X : S100000x64.Idx → EReal} {W1 : S64x128.Idx → EReal} {b1 : S128.Idx → EReal}
    {W2 : S128x64.Idx → EReal} {b2 : S64.Idx → EReal}
    (h0 : arr m c 0 = A) (h1 : arr m c 1 = X) (h2 : arr m c 2 = W1) (h3 : arr m c 3 = b1) (h4 : arr m c 4 = W2) (h5 : arr m c 5 = b2) :
    resultOf m c = layer100000 A X W1 b1 W2 b2 := by
  unfold resultOf
  rw [h0, h1, h2, h3, h4, h5]

/-- THE ARRAY after the run is the layer over all nodes, of the arrays the grid found. -/
theorem final (c : Dev nD) : (dats m 0 c).arrAt 6 cfg0.N = resultOf m c :=
  (dats m 0 c).arrAt_eq_of_cover 6 (resultOf m c) (fun t _ => flushed_eq m c t) (cover)

end Cert.KernelIdeal.Whole

end
-- ==== Proof.SourceRange.lean ====
/-
  Source indices in range make the filled row-gather a plain row-gather.

  A row-gather with fill reads row `s'` of a table of 100000 rows, where `s' = s + 100000` when the signed
  32-bit index `s` is negative and `s' = s` otherwise, and replaces the row by a fill value unless
  `0 ≤ s' ≤ 99999`. If every index satisfies `-100000 ≤ s < 100000` then `0 ≤ s' ≤ 99999` for every
  index: for `s < 0` the sum `s + 100000` lies in `[0, 100000)` and does not wrap as a 32-bit word, and
  for `s ≥ 0` nothing changes. So the validity mask is 1 everywhere and the selection returns the
  gathered rows unchanged, whatever the fill value is.
-/
import Idealize.ShloMosaic.PureOps
import Idealize.ShloMosaic.PureOps.Reduce
import Idealize.ShloMosaic.Lib.ReduceAll
import Idealize.ShloMosaic.Lib.StableHlo.Predicate

namespace Cert.GinLayer

open Idealize.ShloMosaic

/-! ## Signed comparisons of 32-bit words as comparisons of their integer values -/

theorem sge_iff (a b : BitVec 32) : IntOp.cmpi .sge a b = 1#1 ↔ b.toInt ≤ a.toInt := by
  simp only [IntOp.cmpi, StableHlo.Predicate.ofBool_eq_one_iff, BitVec.sle, decide_eq_true_eq]

theorem sle_iff (a b : BitVec 32) : IntOp.cmpi .sle a b = 1#1 ↔ a.toInt ≤ b.toInt := by
  simp only [IntOp.cmpi, StableHlo.Predicate.ofBool_eq_one_iff, BitVec.sle, decide_eq_true_eq]

theorem slt_iff (a b : BitVec 32) : IntOp.cmpi .slt a b = 1#1 ↔ a.toInt < b.toInt := by
  simp only [IntOp.cmpi, StableHlo.Predicate.ofBool_eq_one_iff, BitVec.slt, decide_eq_true_eq]

/-- The wrapped index: a negative index counts from the end of a table of 100000 rows. -/
abbrev wrapWord (s : BitVec 32) : BitVec 32 :=
  Scalar.select (IntOp.cmpi .slt s 0#32) (IntOp.addi s 100000#32) s

/-- For `-100000 ≤ s < 100000` the wrapped index lies in `[0, 99999]`: both range tests of the fill mask pass. -/
theorem wrapWord_in_range (s : BitVec 32)
    (hlo : IntOp.cmpi .sge s 4294867296#32 = 1#1) (hhi : IntOp.cmpi .slt s 100000#32 = 1#1) :
    IntOp.andi (IntOp.cmpi .sge (wrapWord s) 0#32) (IntOp.cmpi .sle (wrapWord s) 99999#32) = 1#1 := by
  rw [sge_iff] at hlo
  rw [slt_iff] at hhi
  have e1 : (4294867296#32 : BitVec 32).toInt = -100000 := by decide
  have e2 : (100000#32 : BitVec 32).toInt = 100000 := by decide
  have e3 : (0#32 : BitVec 32).toInt = 0 := by decide
  have e4 : (99999#32 : BitVec 32).toInt = 99999 := by decide
  rw [e1] at hlo
  rw [e2] at hhi
  rw [IntOp.andi_eq_one, sge_iff, sle_iff, e3, e4]
  by_cases hneg : s.toInt < 0
  · -- a negative index: the sum with 100000 is exact (no wrap-around) and lands in [0, 100000)
    have hc : IntOp.cmpi .slt s 0#32 = 1#1 := by rw [slt_iff, e3]; exact hneg
    have ha : (IntOp.addi s 100000#32).toInt = s.toInt + 100000 := by
      show (s + 100000#32).toInt = _
      rw [BitVec.toInt_add, e2, Int.bmod_def]
      split <;> omega
    have hs : wrapWord s = IntOp.addi s 100000#32 := by
      unfold wrapWord Scalar.select; exact if_pos hc
    rw [hs, ha]; omega
  · -- a non-negative index is kept
    have hc : IntOp.cmpi .slt s 0#32 ≠ 1#1 := by rw [Ne, slt_iff, e3]; exact hneg
    have hs : wrapWord s = s := by
      unfold wrapWord Scalar.select; exact if_neg hc
    rw [hs]; omega

/-! ## A conjunction over a list that starts at 1 and meets only 1s is 1 -/

theorem foldl_andi_of_all_one {ι : Type} (f : ι → BitVec 1) :
    ∀ (l : List ι), (∀ n ∈ l, f n = 1#1) → l.foldl (fun r n => IntOp.andi r (f n)) 1#1 = 1#1
  | [], _ => rfl
  | a :: l, h => by
    have h11 : IntOp.andi (1#1 : BitVec 1) 1#1 = 1#1 := by decide
    rw [List.foldl_cons, h a List.mem_cons_self, h11]
    exact foldl_andi_of_all_one f l (fun n hn => h n (List.mem_cons_of_mem _ hn))

/-- A reduction by `and` from the constant 1 over an array of 1s is 1 at every result index. -/
theorem reduce_andi_of_all_one {s t u : Shape} {axes : List (Fin s.rank)} (x : s.Idx → BitVec 1)
    (h : s.ReducesTo axes t) (hu : 0 < u.numel) (hx : ∀ i, x i = 1#1) (j : t.Idx) :
    Host.reduce IntOp.andi x (constantI u 1 1#1) h hu j = 1#1 := by
  rw [Host.reduce_eq_foldl]
  exact foldl_andi_of_all_one x _ (fun n _ => hx n)

/-! ## A selection under a mask of 1s keeps its first operand -/

theorem select_of_all_one {α : Type} {s : Shape} (c : IVec s 1) (a b : s.Idx → α) (hc : ∀ j, c j = 1#1) :
    select c a b = a := by
  funext j
  show Scalar.select (c j) (a j) (b j) = a j
  unfold Scalar.select
  exact if_pos (hc j)

end Cert.GinLayer
-- ==== Proof.KernelAggregate.lean ====
/-
  The aggregate array as the grid finds it.

  Before the grid runs, the program splits the edge array into its source row and destination row, wraps
  negative sources by the table length, gathers one feature row per edge with a validity mask (a row is
  replaced by a fill value unless its wrapped source lies in `[0, 99999]`), and scatter-sums the rows into a
  zero array by destination. The first window of the grid reads that array.

  When every source satisfies `-100000 ≤ s < 100000` the validity mask is 1 for every edge, so the rows that
  are summed are exactly the gathered rows: the fill value never enters.
-/
import proofs.«421940_j66340064854628_3_alg».proof.Proof.Gen.KernelIdeal.Frame
import proofs.«421940_j66340064854628_3_alg».proof.Proof.SourceRange
import Idealize.ShloMosaic.Lib.StableHlo.Run

noncomputable section

namespace Cert.KernelIdeal.Agg

open Cert.KernelIdeal Cert.KernelIdeal.Gen Idealize.ShloMosaic Idealize.ShloMosaic.TcCoe Idealize.SL.Sem Cert.GinLayer

variable {F : FTy → Type} [FloatOps F]

/-- The source index of every edge: row 0 of the edge array. -/
abbrev srcOf (ei : IVec S2x1600000 32) : IVec S1600000 32 :=
  shapeCast S1600000 (extractStridedSlice S1x1600000 ![0, 0] ei slices_S2x1600000_S1x1600000_0_0) shapeCasts_S1x1600000_S1600000

/-- The destination index of every edge: row 1 of the edge array. -/
abbrev dstOf (ei : IVec S2x1600000 32) : IVec S1600000 32 :=
  shapeCast S1600000 (extractStridedSlice S1x1600000 ![1, 0] ei slices_S2x1600000_S1x1600000_1_0) shapeCasts_S1x1600000_S1600000

/-- Sources with negative ones counted from the end of the table. -/
abbrev wrapped (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

/-- The wrapped sources as a column of start indices. -/
abbrev srcCol (s : IVec S1600000 32) : IVec S1600000x1 32 :=
  broadcastInDim S1600000x1 ![0] bcast_S1600000_S1600000x1_0 (wrapped s)

/-- Per edge: is the wrapped source inside `[0, 99999]`? -/
abbrev validMask (s : IVec S1600000 32) : IVec S1600000 1 :=
  Host.reduce IntOp.andi
    (andi (cmpi .sge (srcCol s) (broadcastInDim S1600000x1 ![] bcast_S_S1600000x1 (constantI S_ 32 0#32)))
      (cmpi .sle (srcCol s) (broadcastInDim S1600000x1 ![0, 1] bcast_S1x1_S1600000x1_0_1 (broadcastInDim S1x1 ![1] bcast_S1_S1x1_1 (constantI S1 32 99999#32)))))
    (constantI S_ 1 1#1) reducesTo_S1600000x1_S1600000_d1 h_S_

/-- One feature row per edge, read at the wrapped source. -/
abbrev gatheredRows (x : FVec F S100000x64 .f32) (s : IVec S1600000 32) : FVec F S1600000x64 .f32 :=
  Host.gather gather_S100000x64_S1600000x1_S1600000x64_1_0_n_n_0_1_164 x (srcCol s)

/-- The gathered rows with the rows of invalid sources replaced by the fill value. -/
abbrev takenRows (x : FVec F S100000x64 .f32) (s : IVec S1600000 32) : FVec F S1600000x64 .f32 :=
  select (broadcastInDim S1600000x64 ![0] bcast_S1600000_S1600000x64_0 (validMask s)) (gatheredRows x s)
    (broadcastInDim S1600000x64 ![] bcast_S_S1600000x64 (constant S_ .f32 0x7FC00000#32))

/-- Rows summed into a zero array of 100000 rows by destination. -/
abbrev scatterSum (d : IVec S1600000 32) (rows : FVec F S1600000x64 .f32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 d) rows

/-! ## In range, the mask is 1 everywhere -/

/-- An entry of the start-index column is the wrapped word of some edge's source. -/
theorem srcCol_apply (s : IVec S1600000 32) (i : S1600000x1.Idx) : ∃ e : S1600000.Idx, srcCol s i = wrapWord (s e) :=
  ⟨_, rfl⟩

/-- With every source in `[-100000, 100000)` the taken rows are the gathered rows. -/
theorem takenRows_eq_gathered (x : FVec F S100000x64 .f32) (s : IVec S1600000 32)
    (hs : ∀ e, IntOp.cmpi .sge (s e) 4294867296#32 = 1#1 ∧ IntOp.cmpi .slt (s e) 100000#32 = 1#1) :
    takenRows x s = gatheredRows x s := by
  refine select_of_all_one _ _ _ fun j => ?_
  refine reduce_andi_of_all_one _ reducesTo_S1600000x1_S1600000_d1 h_S_ (fun i => ?_) _
  obtain ⟨e, he⟩ := srcCol_apply s i
  show IntOp.andi (IntOp.cmpi .sge (srcCol s i) 0#32) (IntOp.cmpi .sle (srcCol s i) 99999#32) = 1#1
  rw [he]
  exact wrapWord_in_range (s e) (hs e).1 (hs e).2

/-! ## What the grid's first window reads -/

/-- A value moved to a typed buffer's own contents type and back is the value. -/
theorem ofBuf_toBuf {sg : RefSig} {Val : EltTy → Type} {T : BufTy} (x : StableHlo.TRef sg T) (v : T.Contents Val) :
    x.ofBuf (x.toBuf v) = v := by
  obtain ⟨r, h, h2, h3⟩ := x
  subst h
  rfl

/-- The source vector's buffer holds vectors of 1600000 words: reading it at that type changes nothing. -/
theorem ofBuf_src (p1 p2 p3) (v : IVec S1600000 32) :
    (StableHlo.TRef.of (T := ⟨S1600000, .i32⟩) main_v1 p1 p2 p3).ofBuf (Val := Elt F) v = v := rfl

/-- The feature array's buffer holds 100000 × 64 floats: reading it at that type changes nothing. -/
theorem ofBuf_features (p1 p2 p3) (v : FVec F S100000x64 .f32) :
    (StableHlo.TRef.of (T := ⟨S100000x64, .f32⟩) main_arg0 p1 p2 p3).ofBuf (Val := Elt F) v = v := rfl

/-- The taken rows' buffer holds 1600000 × 64 floats: writing it at that type changes nothing. -/
theorem toBuf_rows (p1 p2 p3) (v : FVec F S1600000x64 .f32) :
    ((StableHlo.TRef.of (T := ⟨S1600000x64, .f32⟩) main_v4 p1 p2 p3).toBuf (Val := Elt F) v : FVec F S1600000x64 .f32) = v := rfl

variable (m : (ℓ : Loc nD τ sig) → Buf (Elt F) ℓ)

set_option maxHeartbeats 2000000 in
/-- The array the first window reads is the scatter-sum, by destination, of the taken rows. -/
theorem V_main_v7 (c : Dev nD) :
    (V m c main_v7 : FVec F S100000x64 .f32)
      = scatterSum (dstOf (m ((c : Thread nD τ).loc main_arg1)))
          (takenRows (m ((c : Thread nD τ).loc main_arg0)) (srcOf (m ((c : Thread nD τ).loc main_arg1)))) := by
  dsimp only [V]
  simp only [hostOps0, hostOps0_1, hostOps0_2, List.flatten_cons, List.flatten_nil, List.append_nil, List.cons_append,
    List.nil_append]
  after_results_simp
  simp only [ofBuf_toBuf, ofBuf_src, ofBuf_features, toBuf_rows]
  rfl

end Cert.KernelIdeal.Agg

end
-- ==== Proof.ReferenceRows.lean ====
/-
  The reference's result, node by node.

  The reference forms the aggregate array (the scatter-sum of gathered rows), adds the unit multiple of the
  feature array, multiplies by the first weights, adds the first bias along rows, rectifies, multiplies by the
  second weights and adds the second bias along rows, all over the 100000 nodes at once. Each host product at
  an entry is the sum over its contracted axis, and each bias broadcast reads the bias at the entry's column.
  So entry `(r, q)` of the result is the output channel `q` of the node whose two rows are rows `r` of the
  aggregate array and of the feature array. The aggregate array itself is not opened here.
-/
import proofs.«421940_j66340064854628_3_alg».proof.Proof.Gen.ReferenceIdeal.Read
import proofs.«421940_j66340064854628_3_alg».proof.Proof.NodeOutput

noncomputable section

namespace Cert.ReferenceIdeal.Rows

open Cert.ReferenceIdeal Cert.ReferenceIdeal.Gen Cert.ReferenceIdeal.Read Idealize.ShloMosaic Idealize.ShloMosaic.ValueIdx Cert.GinLayer

variable (x0 : (⟨S100000x64, .f32⟩ : BufTy).Contents (Elt Ideal)) (x1 : (⟨S2x1600000, .i32⟩ : BufTy).Contents (Elt Ideal))
  (x2 : (⟨S64x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-- Entry `(r, l)` of the residual array: the aggregate plus the unit multiple of the feature, at that entry. -/
theorem residual_apply (r : Fin 100000) (l : Fin 64) :
    val_main_v16 (F := Ideal) x0 x1 (ix2 r l)
      = val_main_v13 (F := Ideal) x0 x1 (ix2 r l) + Ideal.ofBits .f32 0x3F800000#32 * x0 (ix2 r l) := by
  rw [val_main_v16_apply, val_main_v15_apply, val_main_v14_apply, val_main_cst_1_apply]
  rfl

/-- Entry `(r, k)` of the rectified hidden array is hidden unit `k` of the node with rows `r`. -/
theorem hidden_apply (r : Fin 100000) (k : Fin 128) :
    val_main_v21 (F := Ideal) x0 x1 x2 x3 (ix2 r k)
      = hiddenUnit (fun l => val_main_v13 (F := Ideal) x0 x1 (ix2 r l)) (fun l => x0 (ix2 r l)) x2 x3 k := by
  have e1 : ∀ l : Fin 64, lidx_main_v17 (ix2 r k) l = ix2 r l := fun l => funext fun a => Fin.ext (by
    match a with | ⟨0, _⟩ => rfl | ⟨1, _⟩ => rfl)
  have e2 : ∀ l : Fin 64, ridx_main_v17 (ix2 r k) l = ix2 l k := fun l => funext fun a => Fin.ext (by
    match a with | ⟨0, _⟩ => rfl | ⟨1, _⟩ => rfl)
  have e3 : idx_main_v18 (idx_main_v19 (ix2 r k)) = ix1 k := funext fun a => Fin.ext (by
    match a with | ⟨0, _⟩ => rfl)
  rw [val_main_v21_apply, val_main_v20_apply, val_main_v17_apply, val_main_v19_apply, val_main_v18_apply,
    val_main_call0_v0_apply, val_main_call0_cst_apply, e3]
  unfold hiddenUnit
  refine congrArg₂ max (congrArg₂ (· + ·) (Finset.sum_congr rfl fun l _ => ?_) rfl) rfl
  rw [e1, e2, residual_apply]

/-- THE REFERENCE'S RESULT at entry `(r, q)`: output channel `q` of the node whose rows are rows `r` of the
    reference's aggregate array and of the feature array. -/
theorem result_apply (r : Fin 100000) (q : Fin 64) :
    val_main_v25 (F := Ideal) x0 x1 x2 x3 x4 x5 (ix2 r q)
      = nodeOut (fun l => val_main_v13 (F := Ideal) x0 x1 (ix2 r l)) (fun l => x0 (ix2 r l)) x2 x3 x4 x5 q := by
  have e1 : ∀ k : Fin 128, lidx_main_v22 (ix2 r q) k = ix2 r k := fun k => funext fun a => Fin.ext (by
    match a with | ⟨0, _⟩ => rfl | ⟨1, _⟩ => rfl)
  have e2 : ∀ k : Fin 128, ridx_main_v22 (ix2 r q) k = ix2 k q := fun k => funext fun a => Fin.ext (by
    match a with | ⟨0, _⟩ => rfl | ⟨1, _⟩ => rfl)
  have e3 : idx_main_v23 (idx_main_v24 (ix2 r q)) = ix1 q := funext fun a => Fin.ext (by
    match a with | ⟨0, _⟩ => rfl)
  rw [val_main_v25_apply, val_main_v22_apply, val_main_v24_apply, val_main_v23_apply, e3]
  unfold nodeOut
  refine congrArg₂ (· + ·) (Finset.sum_congr rfl fun k _ => ?_) rfl
  rw [e1, e2, hidden_apply]

end Cert.ReferenceIdeal.Rows

end
-- ==== Proof.SourcePre.lean ====
/-
  What the precondition says about the source indices.

  The precondition is a conjunction of six `all`-reductions; the last one ranges over the source row of the edge
  array (row 0, as a vector of 1600000 words) and asks of every word `s` both `s ≥ -100000` and `s < 100000`
  as signed 32-bit comparisons. A conjunction that is 1 has every conjunct 1, and an `and`-reduction that is 1
  met a 1 at every index, so every source word passes both tests.
-/
import proofs.«421940_j66340064854628_3_alg».proof.Proof.Gen.Pre_finite_inputs
import Idealize.ShloMosaic.Lib.ReduceAll
import Idealize.ShloMosaic.Lib.ValueIdx

noncomputable section

namespace Cert.Pre_finite_inputs.Range

open Cert.Pre_finite_inputs Cert.Pre_finite_inputs.Facts Idealize.ShloMosaic

instance : Subsingleton S_.Idx := ⟨fun a b => funext fun d => d.elim0⟩

variable [Facts]

/-- Under the precondition every source word lies in `[-100000, 100000)` as a signed word. -/
theorem sources_in_range {F : FTy → Type} [FloatOps F] (a0 : FVec F S100000x64 .f32) (a1 : IVec S2x1600000 32)
    (a2 : FVec F S64x128 .f32) (a3 : FVec F S128 .f32) (a4 : FVec F S128x64 .f32) (a5 : FVec F S64 .f32)
    (h : fn (F := F) a0 a1 a2 a3 a4 a5 = fun _ => 1#1) (e : S1600000.Idx) :
    IntOp.cmpi .sge (shapeCast S1600000 (extractStridedSlice S1x1600000 ![0, 0] a1 slices_S2x1600000_S1x1600000_0_0) shapeCasts_S1x1600000_S1600000 e) 4294867296#32 = 1#1
      ∧ IntOp.cmpi .slt (shapeCast S1600000 (extractStridedSlice S1x1600000 ![0, 0] a1 slices_S2x1600000_S1x1600000_0_0) shapeCasts_S1x1600000_S1600000 e) 100000#32 = 1#1 := by
  have h0 := congrFun h ValueIdx.ix0
  dsimp only [fn, fn_part1] at h0
  obtain ⟨-, hsrc⟩ := IntOp.andi_eq_one.1 h0
  exact IntOp.andi_eq_one.1 (Host.reduce_andi_all _ _ reducesTo_S1600000_S_d0 h_S_ ValueIdx.ix0 hsrc e)

end Cert.Pre_finite_inputs.Range

end
-- ==== Proof.Bridge.lean ====
/-
  The two programs compute one function of their arguments.

  Both form the aggregate array — for every edge, the feature row at its (wrapped) source, summed into the row of its
  destination — and both then apply the same layer, node by node, to the aggregate and the feature array. The
  layer was read off each program separately. What is left is the aggregate: the kernel's version replaces the
  row of an edge whose wrapped source falls outside the table by a fill value, the reference's does not. The
  precondition puts every source in `[-100000, 100000)`, so no row is replaced and the two aggregates are the
  same gather followed by the same scatter-sum.
-/
import proofs.«421940_j66340064854628_3_alg».proof.Defs
import proofs.«421940_j66340064854628_3_alg».proof.Proof.KernelArray
import proofs.«421940_j66340064854628_3_alg».proof.Proof.KernelAggregate
import proofs.«421940_j66340064854628_3_alg».proof.Proof.ReferenceRows
import proofs.«421940_j66340064854628_3_alg».proof.Proof.SourcePre

noncomputable section

namespace Cert.Bridge

open Idealize.ShloMosaic Idealize.ShloMosaic.TcCoe Idealize.SL.Sem Idealize.ShloMosaic.ValueIdx Cert.GinLayer

section KernelSide

open Cert.KernelIdeal Cert.KernelIdeal.Gen

/-- The aggregate array: the feature rows at the wrapped sources, summed by destination. -/
abbrev aggregate (x : FVec Ideal S100000x64 .f32) (ei : IVec S2x1600000 32) : FVec Ideal S100000x64 .f32 :=
  Agg.scatterSum (Agg.dstOf ei) (Agg.gatheredRows x (Agg.srcOf ei))

variable (m : (ℓ : Loc nD τ sig) → Buf (Elt Ideal) ℓ)

/-- The precondition, read on the kernel's own source vector. -/
theorem sources_ok (hpre : Cert.Pre_KernelIdeal m) (c : Dev nD) (e : S1600000.Idx) :
    IntOp.cmpi .sge (Agg.srcOf (m ((c : Thread nD τ).loc main_arg1)) e) 4294867296#32 = 1#1
      ∧ IntOp.cmpi .slt (Agg.srcOf (m ((c : Thread nD τ).loc main_arg1)) e) 100000#32 = 1#1 :=
  Cert.Pre_finite_inputs.Range.sources_in_range _ _ _ _ _ _ (hpre c) e

/-- Under the precondition the array the first window reads is the aggregate of the arguments. -/
theorem agg_array (hpre : Cert.Pre_KernelIdeal m) (c : Dev nD) :
    Whole.arr m c 0 = aggregate (m ((c : Thread nD τ).loc main_arg0)) (m ((c : Thread nD τ).loc main_arg1)) :=
  (Agg.V_main_v7 (F := Ideal) m c).trans
    (congrArg (Agg.scatterSum _) (Agg.takenRows_eq_gathered _ _ (sources_ok m hpre c)))

/-- THE KERNEL'S RESULT ARRAY: the layer over all nodes, of the aggregate and the arguments. -/
theorem kernel_array (hpre : Cert.Pre_KernelIdeal m) (c : Dev nD) :
    (dats m 0 c).arrAt 6 cfg0.N
      = layer100000 (aggregate (m ((c : Thread nD τ).loc main_arg0)) (m ((c : Thread nD τ).loc main_arg1)))
          (m ((c : Thread nD τ).loc main_arg0)) (m ((c : Thread nD τ).loc main_arg2)) (m ((c : Thread nD τ).loc main_arg3))
          (m ((c : Thread nD τ).loc main_arg4)) (m ((c : Thread nD τ).loc main_arg5)) :=
  (Whole.final m c).trans
    (Whole.resultOf_eq m c (agg_array m hpre c) (V_main_arg0 m c) (V_main_arg2 m c) (V_main_arg3 m c) (V_main_arg4 m c) (V_main_arg5 m c))

end KernelSide

section ReferenceSide

open Cert.ReferenceIdeal Cert.ReferenceIdeal.Gen Cert.ReferenceIdeal.Read

variable (x0 : (⟨S100000x64, .f32⟩ : BufTy).Contents (Elt Ideal)) (x1 : (⟨S2x1600000, .i32⟩ : BufTy).Contents (Elt Ideal))
  (x2 : (⟨S64x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))

/-- The reference's aggregate is the same gather and scatter-sum. -/
theorem aggregate_same : val_main_v13 (F := Ideal) x0 x1 = aggregate x0 x1 := rfl

/-- THE REFERENCE'S RESULT ARRAY: the same layer, of the same aggregate and the arguments. -/
theorem reference_array :
    val_main_v25 (F := Ideal) x0 x1 x2 x3 x4 x5 = layer100000 (aggregate x0 x1) x0 x2 x3 x4 x5 := by
  funext i
  obtain ⟨r, q, rfl⟩ : ∃ (r : Fin 100000) (q : Fin 64), i = ix2 r q := ⟨i 0, i 1, eq_ix2 i⟩
  rw [Rows.result_apply, layer100000_apply, aggregate_same]

end ReferenceSide

end Cert.Bridge

end
-- ==== Proof.lean ====
/-
  A graph-isomorphism-network layer, tiled over nodes, against the same layer over all nodes at once.

  Both programs take node features `x` (100000 × 64), an edge array (2 × 1600000: a source row and a destination
  row), and the parameters of a two-layer perceptron. Both form the aggregate `agg[d] = Σ_{e : dst e = d} x[src e]`
  with a gather and a scatter-sum, the residual `agg + 1·x`, the hidden layer `max(· W1 + b1, 0)` and the output
  `· W2 + b2`. The tiled program runs the perceptron on 20 blocks of 5000 nodes, narrowing to a 16-bit format
  before each matrix product; over the extended reals a narrowing is the identity and a product into a zero
  accumulator is the plain sum, so its blocks are the blocks of the one-shot computation: a node's output row depends
  only on that node's aggregate row and feature row.

  The one place the two differ is the gather: the tiled program's replaces the row of an out-of-table source by a
  fill value, the other's clamps. The precondition confines every source to `[-100000, 100000)` (negative sources
  count from the end of the table in both programs), where neither happens, so the two aggregates coincide. The
  finiteness part of the precondition is not used: only commutativity of finite sums joins the two sides.

  The three frame claims are the generated frames (the reference's is its run with the value dropped); the
  idealization rewrote nothing, so its claim is `True`.
-/
import proofs.«421940_j66340064854628_3_alg».proof.Defs
import proofs.«421940_j66340064854628_3_alg».proof.Proof.Gen.Kernel
import proofs.«421940_j66340064854628_3_alg».proof.Proof.Gen.Kernel.Skeleton
import proofs.«421940_j66340064854628_3_alg».proof.Proof.Gen.Kernel.Launch
import proofs.«421940_j66340064854628_3_alg».proof.Proof.Gen.Kernel.Points
import proofs.«421940_j66340064854628_3_alg».proof.Proof.Gen.Kernel.Frame
import proofs.«421940_j66340064854628_3_alg».proof.Proof.Gen.KernelIdeal
import proofs.«421940_j66340064854628_3_alg».proof.Proof.Gen.KernelIdeal.Skeleton
import proofs.«421940_j66340064854628_3_alg».proof.Proof.Gen.KernelIdeal.Launch
import proofs.«421940_j66340064854628_3_alg».proof.Proof.Gen.KernelIdeal.Points
import proofs.«421940_j66340064854628_3_alg».proof.Proof.Gen.KernelIdeal.Frame
import proofs.«421940_j66340064854628_3_alg».proof.Proof.Gen.ReferenceIdeal
import proofs.«421940_j66340064854628_3_alg».proof.Proof.Gen.Pre_finite_inputs
import proofs.«421940_j66340064854628_3_alg».proof.Proof.Gen.KernelIdeal.Value
import proofs.«421940_j66340064854628_3_alg».proof.Proof.Gen.ReferenceIdeal.Run
import proofs.«421940_j66340064854628_3_alg».proof.Proof.Gen.ReferenceIdeal.Read
import proofs.«421940_j66340064854628_3_alg».proof.Proof.Bridge
import Idealize.ShloMosaic.Adequacy
import Idealize.ShloMosaic.Init

noncomputable section

namespace Cert.Proof

open Idealize.ShloMosaic Idealize.ShloMosaic.TcCoe Idealize.SL.Sem Cert.GinLayer

/-- The tiled program, read on words, runs and keeps its arguments. -/
theorem frame_kernel : Cert.frame_Kernel := fun m ρ _ => Cert.Kernel.Gen.frame m ρ

/-- The tiled program, read on extended reals, runs and keeps its arguments. -/
theorem frame_kernelIdeal : Cert.frame_KernelIdeal := fun m ρ _ => Cert.KernelIdeal.Gen.frame m ρ

/-- The one-shot program runs and keeps its arguments: its run, with the value forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments, under the precondition, both programs end with the layer over all
    nodes of the aggregate and the arguments: the tiled one block by block, the one-shot one entry by entry. -/
theorem algebraic : Cert.algebraic_KernelIdeal_ReferenceIdeal := by
  intro m ρ m' ρ' hpre hagree
  refine ⟨fun c => layer100000
      (Cert.Bridge.aggregate (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Bridge.kernel_array m hpre c), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v25_eq, Cert.Bridge.reference_array,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
